-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x512x2048 : Shape := ⟨3, ![1, 512, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .bf16⟩
  | .hbm, ⟨5, _⟩ => ⟨S8x2048x8192, .bf16⟩
  | .hbm, ⟨6, _⟩ => ⟨S8x4096x2048, .bf16⟩
  | .hbm, ⟨7, _⟩ => ⟨S8x1024x2048, .f32⟩
  | .hbm, ⟨8, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S512x2048_S1x512x2048 : S512x2048.ShapeCasts S1x512x2048
  shapeCasts_S8x1024x2048_S8192x2048 : S8x1024x2048.ShapeCasts S8192x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x8192.size a
  hwx0_1 : ∀ i : grid0.Coords, EltTy.bits .bf16 = 32 ∨ (Rect.block (s := S8x2048x8192) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x8192.size a
  hwx0_2 : ∀ i : grid0.Coords, EltTy.bits .bf16 = 32 ∨ (Rect.block (s := S8x2048x8192) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x4096x2048.size a
  hwx0_3 : ∀ i : grid0.Coords, EltTy.bits .bf16 = 32 ∨ (Rect.block (s := S8x4096x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.KiShared.lean ====
/-
  What the three runs of the kernel body and the launch share, at any float instance.

  The grid is (expert e < 8, token tile t < 2, column tile b < 4), walked with b fastest: point n has b = n % 4.
  The body clears its accumulator when b = 0 and copies it to the output block when b = 3; so a point is in one of
  three cases (first tile, middle tile, last tile), told apart by n % 4.  The output block is stored only in the
  last case; elsewhere its staging buffer is left as found and is not written back.
-/
import proofs.«135900_j8332236554875_1_alg».proof.Proof.Gen.KernelIdeal.Launch
import proofs.«135900_j8332236554875_1_alg».proof.Proof.Gen.KernelIdeal.Skeleton
import proofs.«135900_j8332236554875_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents after the four host operations before it
    (one reshape, three changes of float format). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- No host operation before the region writes an argument array. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]; after_results <;> rfl
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]; after_results <;> rfl
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]; after_results <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (a point that does not fetch has the block index of the point before), for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is the first column tile" (`b = 0`), as the body computes it from the grid coordinates. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last column tile" (`b = 3`). -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last tile the output block is not stored (idle) and not written back. -/
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
/-- On the last tile it is stored. -/
theorem liveAt0_4 : ∀ t : Fin cfg0.N, condLast (grid0.coords t) → cfg0.idle 4 (grid0.coords t) = false := by decide +kernel

/-! ## The staging and scratch memrefs -/

/-- One staging buffer of the output window, through which its contents are stated. -/
abbrev VO0_4 : View sig .tc .vmem S1x512x2048 .f32 := (Memref.whole cc0_stg4_0 : Memref sig .tc .vmem S1x512x2048 .f32).view
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The accumulator: a scratch buffer of the kernel's own, kept from one point to the next. -/
abbrev scM0_0 : Memref sig .tc .vmem S512x2048 .f32 := Memref.whole cc0_scratch0
abbrev VS0_0 : View sig .tc .vmem S512x2048 .f32 := scM0_0.view

/-- The region's standing invariant with the accumulator spelt as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KiRunFirst.lean ====
/-
  The kernel body run at a point of the FIRST column tile: it clears the accumulator, adds the tile's partial product
  and stores nothing into the output block.
-/
import proofs.«135900_j8332236554875_1_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four inputs at their blocks, the output block at contents handed back untouched, the
    accumulator at anything — the body runs to its end holding the inputs as they were and the accumulator with the
    pieces its stores wrote (the witness the symbolic run finds). -/
noncomputable def runFirst (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : condFirst i) (hc1 : ¬condLast i)
    (x0 : Vec F S1x512x2048 .bf16) (x1 : Vec F S1x2048x1024 .bf16) (x2 : Vec F S1x2048x1024 .bf16) (x3 : Vec F S1x1024x2048 .bf16) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KiRunMid.lean ====
/-
  The kernel body run at a point of a MIDDLE column tile: it adds the tile's partial product to the accumulator the
  point before left and stores nothing into the output block.
-/
import proofs.«135900_j8332236554875_1_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As for the first tile, the accumulator now entering at the contents `xs0` the point before left. -/
noncomputable def runMid (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : ¬condLast i)
    (x0 : Vec F S1x512x2048 .bf16) (x1 : Vec F S1x2048x1024 .bf16) (x2 : Vec F S1x2048x1024 .bf16) (x3 : Vec F S1x1024x2048 .bf16) (xs0 : Vec F S512x2048 .f32) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KiRunLast.lean ====
/-
  The kernel body run at a point of the LAST column tile: it adds the tile's partial product to the accumulator the
  point before left and copies the finished accumulator into the output block.
-/
import proofs.«135900_j8332236554875_1_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As for a middle tile, the output block's buffer now entering at anything and leaving with the pieces the body's
    store wrote. -/
noncomputable def runLast (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i)
    (x0 : Vec F S1x512x2048 .bf16) (x1 : Vec F S1x2048x1024 .bf16) (x2 : Vec F S1x2048x1024 .bf16) (x3 : Vec F S1x1024x2048 .bf16) (xs0 : Vec F S512x2048 .f32) :
    Σ' (L4 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KiFrame.lean ====
/-
  The kernel's frame data at any float instance: what the accumulator and the output block hold after every grid point,
  the proof data of the pipeline, and the body obligation.

  After point n the accumulator holds: at a first tile (n % 4 = 0) the body's update of a cleared accumulator; at a later
  tile its update of what point n - 1 left.  The output block is stored at last tiles only (n % 4 = 3), where it is a copy
  of the accumulator just updated.
-/
import proofs.«135900_j8332236554875_1_alg».proof.Proof.KiRunFirst
import proofs.«135900_j8332236554875_1_alg».proof.Proof.KiRunMid
import proofs.«135900_j8332236554875_1_alg».proof.Proof.KiRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-tile case stores nothing into the output block: a placeholder nothing consults. -/
def outFirst4 (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : condFirst i) (hc1 : ¬condLast i) (x0 : Vec F S1x512x2048 .bf16) (x1 : Vec F S1x2048x1024 .bf16) (x2 : Vec F S1x2048x1024 .bf16) (x3 : Vec F S1x1024x2048 .bf16) : Vec F S1x512x2048 .f32 :=
  VO0_4.read (Elt F) (VO0_4.writes (Elt F) VO0_4.junk (runFirst c i arg3 harg3 arg4 harg4 arg5 harg5 arg6 harg6 arg7 harg7 arg8 harg8 hc0 hc1 x0 x1 x2 x3).1)

/-- The first-tile case's stores into the accumulator cover it. -/
theorem scoverFirst (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : condFirst i) (hc1 : ¬condLast i) (x0 : Vec F S1x512x2048 .bf16) (x1 : Vec F S1x2048x1024 .bf16) (x2 : Vec F S1x2048x1024 .bf16) (x3 : Vec F S1x1024x2048 .bf16) (y : S512x2048.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S512x2048.size (by sl_kernel_rfl) y

/-- What the first-tile case leaves in the accumulator. -/
def accFirst (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : condFirst i) (hc1 : ¬condLast i) (x0 : Vec F S1x512x2048 .bf16) (x1 : Vec F S1x2048x1024 .bf16) (x2 : Vec F S1x2048x1024 .bf16) (x3 : Vec F S1x1024x2048 .bf16) : Vec F S512x2048 .f32 :=
  VS0_0.read (Elt F) (VS0_0.writes (Elt F) VS0_0.junk (runFirst c i arg3 harg3 arg4 harg4 arg5 harg5 arg6 harg6 arg7 harg7 arg8 harg8 hc0 hc1 x0 x1 x2 x3).2.1)

/-- A middle-tile case stores nothing into the output block: a placeholder nothing consults. -/
def outMid4 (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : ¬condLast i) (x0 : Vec F S1x512x2048 .bf16) (x1 : Vec F S1x2048x1024 .bf16) (x2 : Vec F S1x2048x1024 .bf16) (x3 : Vec F S1x1024x2048 .bf16) (xs0 : Vec F S512x2048 .f32) : Vec F S1x512x2048 .f32 :=
  VO0_4.read (Elt F) (VO0_4.writes (Elt F) VO0_4.junk (runMid c i arg3 harg3 arg4 harg4 arg5 harg5 arg6 harg6 arg7 harg7 arg8 harg8 hc0 hc1 x0 x1 x2 x3 xs0).1)

theorem scoverMid (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : ¬condLast i) (x0 : Vec F S1x512x2048 .bf16) (x1 : Vec F S1x2048x1024 .bf16) (x2 : Vec F S1x2048x1024 .bf16) (x3 : Vec F S1x1024x2048 .bf16) (xs0 : Vec F S512x2048 .f32) (y : S512x2048.Idx) :
    ∃ pc ∈ (runMid c i arg3 harg3 arg4 harg4 arg5 harg5 arg6 harg6 arg7 harg7 arg8 harg8 hc0 hc1 x0 x1 x2 x3 xs0).2.1, y ∈ pc.1.set :=
  View.cover_of_tiledL (runMid c i arg3 harg3 arg4 harg4 arg5 harg5 arg6 harg6 arg7 harg7 arg8 harg8 hc0 hc1 x0 x1 x2 x3 xs0).2.1 S512x2048.size (by sl_kernel_rfl) y

/-- What a middle-tile case leaves in the accumulator, over what the point before left (`xs0`). -/
def accMid (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : ¬condLast i) (x0 : Vec F S1x512x2048 .bf16) (x1 : Vec F S1x2048x1024 .bf16) (x2 : Vec F S1x2048x1024 .bf16) (x3 : Vec F S1x1024x2048 .bf16) (xs0 : Vec F S512x2048 .f32) : Vec F S512x2048 .f32 :=
  VS0_0.read (Elt F) (VS0_0.writes (Elt F) VS0_0.junk (runMid c i arg3 harg3 arg4 harg4 arg5 harg5 arg6 harg6 arg7 harg7 arg8 harg8 hc0 hc1 x0 x1 x2 x3 xs0).2.1)

/-- The last-tile case's store into the output block covers it. -/
theorem coverLast4 (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) (y : S1x512x2048.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1x512x2048.size (by sl_kernel_rfl) y

/-- What the last-tile case leaves in the output block's staging buffer. -/
def outLast4 (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) : Vec F S1x512x2048 .f32 :=
  VO0_4.read (Elt F) (VO0_4.writes (Elt F) VO0_4.junk (runLast c i arg3 harg3 arg4 harg4 arg5 harg5 arg6 harg6 arg7 harg7 arg8 harg8 hc0 hc1 x0 x1 x2 x3 xs0).1)

theorem scoverLast (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) (y : S512x2048.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S512x2048.size (by sl_kernel_rfl) y

/-- What the last-tile case leaves in the accumulator. -/
def accLast (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) : Vec F S512x2048 .f32 :=
  VS0_0.read (Elt F) (VS0_0.writes (Elt F) VS0_0.junk (runLast c i arg3 harg3 arg4 harg4 arg5 harg5 arg6 harg6 arg7 harg7 arg8 harg8 hc0 hc1 x0 x1 x2 x3 xs0).2.1)

/-! ## Point by point -/

/-- What the output block's staging buffer and the accumulator hold after the body at position `n`: the case `n % 4`
    selects, run on the point's memrefs and input blocks, a later tile over the accumulator position `n - 1` left. -/
def outsAt0 (c : Dev nD) : (n : ℕ) → n < cfg0.N → Vec F S1x512x2048 .f32 × Vec F S512x2048 .f32
  | 0, hn => (outFirst4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (outFirst4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩), accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (outLast4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (outMid4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_first (c : Dev nD) (t : Fin cfg0.N) (h0 : t.val % 4 = 0) (h1 : ¬t.val % 4 = 3) :
    outsAt0 m c t.val t.isLt = (outFirst4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcondFirst t).mpr h0) (fun h => h1 ((hcondLast t).mp h)) (iblk m c 0 t) (iblk m c 1 t) (iblk m c 2 t) (iblk m c 3 t), accFirst c (grid0.coords t) (ms0_0 t) (hs0_0 t) (ms0_1 t) (hs0_1 t) (ms0_2 t) (hs0_2 t) (ms0_3 t) (hs0_3 t) (ms0_4 t) (hs0_4 t) scM0_0 (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_mid (c : Dev nD) (t : Fin cfg0.N) (h0 : ¬t.val % 4 = 0) (h1 : ¬t.val % 4 = 3) :
    outsAt0 m c t.val t.isLt = (outMid4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) (fun h => h1 ((hcondLast t).mp h)) (iblk m c 0 t) (iblk m c 1 t) (iblk m c 2 t) (iblk m c 3 t) (outsAt0 m c (t.val - 1) (Nat.lt_of_le_of_lt (Nat.sub_le _ _) t.isLt)).2, accMid c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) (fun h => h1 ((hcondLast t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 m c t.val t.isLt = (outLast4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) ((hcondLast t).mpr h1) (iblk m c 0 t) (iblk m c 1 t) (iblk m c 2 t) (iblk m c 3 t) (outsAt0 m c (t.val - 1) (Nat.lt_of_le_of_lt (Nat.sub_le _ _) t.isLt)).2, accLast c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) ((hcondLast t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards what
    the point before left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- Arrays as the region finds them; after the body each input's buffer at its block and the output's at `outsAt0`;
    the invariant `PhiS`; nothing owed. The two windows on the one gate/up array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves_in1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves_in2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves_in3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

set_option maxHeartbeats 4800000 in
/-- The body at any point: the inputs' memrefs hold their blocks; `t % 4` says which case the point is in; the invariant
    hands the body the accumulator at what the point before left (at anything at the very first point) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 4 = 0
  · have h1 : ¬t.val % 4 = 3 := by omega
    rw [Dat.leavesExact_idle (dats m 0 c) 4 t (idleAt0_4 t (fun h => h1 ((hcondLast t).mp h))) (noFlush0_4 t (fun h => h1 ((hcondLast t).mp h)))]
    rw [outsAt0_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dats m 0 c).leavesExact 4 t = owns (c : Thread nD τ) (ms0_4 t) fullShare ((dats m 0 c).after 4 t) from by
        unfold Dat.leavesExact; rw [liveAt0_4 t ((hcondLast t).mpr h1)], after0_4]
      rw [outsAt0_last m c t h0 h1]
      unfold outLast4 accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast4 c _ _ _ _ _ _ _ _ _ _ _ _ _ _ _ _ _ _ _ _)
    · rw [Dat.leavesExact_idle (dats m 0 c) 4 t (idleAt0_4 t (fun h => h1 ((hcondLast t).mp h))) (noFlush0_4 t (fun h => h1 ((hcondLast t).mp h)))]
      rw [outsAt0_mid m c t h0 h1]
      unfold accMid; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS0, Hg⟩
  isplitl [HS0]
  · iexists _; iexact HS0
  iexact Hg

end Cert.KernelIdeal.Hand

end
-- ==== Proof.KiLaunch.lean ====
/-
  The launch: from any memory with zero counters, every weakly fair execution of the program ends, with the output
  array at what the pipeline's proof data compute, the final reshape applied to it, and every argument array unchanged.

  Two windows of the kernel read the one gate/up weight array.  The array's whole share is dealt half to each at the
  region's entry and put together again at its exit; the other arrays are held whole by their one window.  After the
  region the program reshapes the output array into a fresh buffer; nothing else is touched.
-/
import proofs.«135900_j8332236554875_1_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The result buffer after the program: the output array after the last grid point, laid out flat. -/
def finalOut (c : Dev nD) : Buf (Elt F) ((c.tc : Thread nD τ).loc main_v5) :=
  shapeCast S8192x2048 (((dats m 0 c).arrAt 4 cfg0.N : Vec F S8x1024x2048 .f32)) shapeCasts_S8x1024x2048_S8192x2048

/-- The pipeline's arrays, window by window: the token array, the two halves of the gate/up array, the down array and
    the output array. -/
theorem arrays_open (c : Dev nD) (A : (w : Fin cfg0.W) → Buf (Elt F) ((cfg0.win w).arr.view.loc (c.tc : Thread nD τ))) :
    ((dats m 0 c).arrays A : sProp 𝕄)
      = iprop((((c.tc : Thread nD τ).loc main_v1) ↦{fullShare} A 0) ∗ (((c.tc : Thread nD τ).loc main_v2) ↦{fullShare.left} A 1)
          ∗ (((c.tc : Thread nD τ).loc main_v2) ↦{fullShare.right} A 2) ∗ (((c.tc : Thread nD τ).loc main_v3) ↦{fullShare} A 3)
          ∗ (((c.tc : Thread nD τ).loc main_v4) ↦{fullShare} A 4)) := by
  have h : ((dats m 0 c).arrays A : sProp 𝕄)
      = bigSep Finset.univ fun w => (((c.tc : Thread nD τ).loc (arrRef spec0 w)) ↦{(dats m 0 c).share w} A w : sProp 𝕄) := by
    unfold Dat.arrays
    exact bigSep_congr fun w _ => by rw [(arr_whole0 w).set_eq_univ]
  rw [h, bigSep_W0]
  rw [show (dats m 0 c).share 0 = fullShare from rfl, show (dats m 0 c).share 1 = fullShare.left from rfl,
    show (dats m 0 c).share 2 = fullShare.right from rfl, show (dats m 0 c).share 3 = fullShare from rfl,
    show (dats m 0 c).share 4 = fullShare from rfl]

/-- The distinct buffers behind the windows' arrays, listed. -/
theorem arrBufs_open (c : Dev nD) (W : (b : Ref sig .tc) → Buf (Elt F) ((c.tc : Thread nD τ).loc b)) :
    (arrBufs spec0 c W : sProp 𝕄)
      = iprop((((c.tc : Thread nD τ).loc main_v1) ↦{fullShare} W main_v1) ∗ (((c.tc : Thread nD τ).loc main_v2) ↦{fullShare} W main_v2)
          ∗ (((c.tc : Thread nD τ).loc main_v3) ↦{fullShare} W main_v3) ∗ (((c.tc : Thread nD τ).loc main_v4) ↦{fullShare} W main_v4)) := by
  unfold arrBufs
  exact bigSep_eq_bigSepL_of_eq [main_v1, main_v2, main_v3, main_v4] (by decide) (by decide) _

/-- The buffers that bypass the region, listed. -/
theorem rest_open (c : Dev nD) (W : (b : Ref sig .tc) → Buf (Elt F) ((c.tc : Thread nD τ).loc b)) :
    (unscopedRestP (Ix := Unit) (Name := ℕ) (U := UR sig nD τ) (Lvl := ℕ) Prefetch.none spec0 c W : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_v5) ↦{fullShare} W main_v5)) := by
  rw [unscopedRestP_none]; exact unscopedRest0_eq c W

/-- At the region's entry the gate/up array's whole share is dealt half to each of its two windows. -/
theorem hsplit (c : Dev nD) : (arrBufs spec0 c (V m c) : sProp 𝕄) ⊢ (dats m 0 c).arrays ((dats m 0 c).arrAt · 0) := by
  rw [arrBufs_open, arrays_open]
  exact sep_mono .rfl ((sep_mono (pointsTo_share (PosShare.mem_left_op_right fullShare)).1 .rfl).trans sep_assoc.1)

/-! ## The reshape after the region -/

/-- The two buffers the final reshape touches: it reads the output array and writes the result buffer. -/
abbrev tailS : Finset (DevRef τ sig) := {Proc.devRef .tc main_v4, Proc.devRef .tc main_v5}

open Classical in
/-- Core `c`'s buffers at the region's exit as the reshape finds them: the output array at its final contents, every
    other buffer as the region found it. -/
def Wexit (c : Dev nD) : Valuation τ sig (Elt F) :=
  Function.update (V0 m c) (Proc.devRef .tc main_v4) ((dats m 0 c).arrAt 4 cfg0.N)

open Classical in
/-- The bypassing buffers at the end: the result buffer at the reshaped output array, the others as the region found them. -/
def Vfin (c : Dev nD) : (b : Ref sig .tc) → Buf (Elt F) ((c.tc : Thread nD τ).loc b) :=
  Function.update (V m c) main_v5 (finalOut m c)

theorem held_tailS (c : Dev nD) (W : Valuation τ sig (Elt F)) :
    (StableHlo.held (c.tc : Thread nD τ) tailS W : sProp 𝕄)
      = iprop((((c.tc : Thread nD τ).loc main_v4) ↦{fullShare} W (Proc.devRef .tc main_v4)) ∗ (((c.tc : Thread nD τ).loc main_v5) ↦{fullShare} W (Proc.devRef .tc main_v5))) := by
  unfold StableHlo.held tailS
  rw [bigSep_insert (by rw [Finset.mem_singleton]; exact StableHlo.devRef_ne_of_ne (by decide)), bigSep_singleton]
  rfl

theorem Wexit_v4 (c : Dev nD) : Wexit m c (Proc.devRef .tc main_v4) = (dats m 0 c).arrAt 4 cfg0.N := by
  unfold Wexit; exact Function.update_self ..
theorem Wexit_v5 (c : Dev nD) : Wexit m c (Proc.devRef .tc main_v5) = V m c main_v5 := by
  unfold Wexit; exact Function.update_of_ne (StableHlo.devRef_ne_of_ne (by decide)) ..
theorem after_v4 (c : Dev nD) : StableHlo.after (List.flatten [hostOps1]) (Wexit m c) (Proc.devRef .tc main_v4) = (dats m 0 c).arrAt 4 cfg0.N := by
  simp only [hostOps1, List.flatten_cons, List.flatten_nil, List.append_nil]; after_results
  exact Wexit_v4 m c
theorem after_v5 (c : Dev nD) : StableHlo.after (List.flatten [hostOps1]) (Wexit m c) (Proc.devRef .tc main_v5) = finalOut m c := by
  simp only [hostOps1, List.flatten_cons, List.flatten_nil, List.append_nil]; after_results
  unfold finalOut; rw [← Wexit_v4 m c]; rfl

theorem Vfin_v5 (c : Dev nD) : Vfin m c main_v5 = finalOut m c := by
  unfold Vfin; exact Function.update_self ..
theorem Vfin_ne (c : Dev nD) (b : Ref sig .tc) (hb : b ≠ main_v5) : Vfin m c b = V m c b := by
  unfold Vfin; exact Function.update_of_ne hb ..

/-- From the region's exit the reshape runs: it reads the output array, which stays as it is, and writes the result buffer;
    the gate/up array's two halves and every other buffer are carried across untouched. -/
theorem htail (c : Dev nD) (Q' : PUnit → sProp 𝕄) :
    iprop((iprop((dats m 0 c).arrays ((dats m 0 c).arrAt · cfg0.N)
              ∗ unscopedRestP (Ix := Unit) (Name := ℕ) (U := UR sig nD τ) (Lvl := ℕ) Prefetch.none spec0 c (Vfin m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE (Pipeline.defs (fun q => (cfgs q).toPCfg (Val := Elt F)) defs₀) (Variants.lift Variants.none) (c.tc : Thread nD τ) none) Set.univ
          (chain [StableHlo.seq hostOps1]) Q' := by
  have hrun := wp_seqs_then (Ix := Unit) (Name := ℕ) (U := UR sig nD τ) (Lvl := ℕ) (fun q => (cfgs q).toPCfg (Val := Elt F)) defs₀ Variants.none c tailS [] (K := Q') [hostOps1]
    (fun ops hops op hop => by
      simp only [List.mem_cons, List.mem_nil_iff, or_false] at hops; subst hops
      simp only [hostOps1, List.mem_cons, List.mem_nil_iff, or_false] at hop; subst hop
      exact subset_rfl)
    (fun ops hops op hop => by
      simp only [List.mem_cons, List.mem_nil_iff, or_false] at hops; subst hops
      exact (List.forall_iff_forall_mem.mp hostOps1_fresh) op hop)
    (Wexit m c)
  rw [held_tailS, held_tailS, Wexit_v4, Wexit_v5, after_v4, after_v5, List.map_cons, List.map_nil, List.append_nil] at hrun
  rw [arrays_open, rest_open c (V m c), rest_open c (Vfin m c), Vfin_v5,
    Vfin_ne m c main_arg0 (by decide), Vfin_ne m c main_arg1 (by decide), Vfin_ne m c main_arg2 (by decide), Vfin_ne m c main_v0 (by decide)]
  iintro ⟨Hk, Hb, ⟨A0, A1, A2, A3, A4⟩, ⟨R0, R1, R2, R3, R5⟩⟩
  iapply hrun $$ [Hb A4 R5]
  · isplitl [Hb]; · iexact Hb
    isplitl [A4]; · iexact A4
    iexact R5
  iintro ⟨-, A4, R5⟩
  rw [chain_nil, wp_pure]
  imodintro
  iapply Hk
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  isplitl [R2]; · iexact R2
  isplitl [R3]; · iexact R3
  iexact R5

set_option backward.isDefEq.respectTransparency.types false in
theorem run_main : θ_run defs (onTc (τ := τ) (main (F := F))) (s₀ m ρ) (fun r => ∀ c : Dev nD,
      r.2.mem ((c.tc : Thread nD τ).loc main_v5) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact θ_run_region_pf_tail (fun q => (cfgs q).toPCfg (Val := Elt F)) (fun q => (cfgs q).toPCfg_adm) (dats m) () cellOf_inj (0 : Fin 1)
    winFacts₀0 (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells (pin (fun q => (cfgs q).toPCfg (Val := Elt F)) (fun q => (cfgs q).toPCfg_adm)) cellOf_inj) (launchToks (pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (cells (pin (fun q => (cfgs q).toPCfg (Val := Elt F)) (fun q => (cfgs q).toPCfg_adm)) cellOf_inj) (launchToks (pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (Vfin m c))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => htail m c Q')
    (QY := fun c s => ∀ b ∈ restRefsP sig Prefetch.none spec0, s.mem ((c.tc : Thread nD τ).loc b) = Vfin m c b)
    (hY := fun c s' => by
      iintro ⟨-, HU, HSI⟩
      unfold unscopedRestP
      imodintro
      iapply (pointsTo_read_all (restRefsP sig Prefetch.none spec0) (fun b => (c.tc : Thread nD τ).loc b) (Vfin m c) s')
      isplitl [HU] <;> iassumption)
    (hQ := fun s h c => by
      have hmem : ∀ b : Ref sig .tc, b.isScoped = false → (∀ w, (spec0 w).arr.view.ref ≠ b) → b ∈ restRefsP sig Prefetch.none spec0 := fun b hs ha =>
        Finset.mem_sdiff.mpr ⟨mem_restRefs_of b hs ha, by simp⟩
      have hq := (h c).2.2
      refine ⟨(hq main_v5 (hmem main_v5 rfl (by decide))).trans (Vfin_v5 m c), ?_, ?_, ?_⟩
      · exact (hq main_arg0 (hmem main_arg0 rfl (by decide))).trans ((Vfin_ne m c main_arg0 (by decide)).trans (V_main_arg0 m c))
      · exact (hq main_arg1 (hmem main_arg1 rfl (by decide))).trans ((Vfin_ne m c main_arg1 (by decide)).trans (V_main_arg1 m c))
      · exact (hq main_arg2 (hmem main_arg2 rfl (by decide))).trans ((Vfin_ne m c main_arg2 (by decide)).trans (V_main_arg2 m c)))

end Cert.KernelIdeal.Hand

end
-- ==== Proof.KiPieces.lean ====
/-
  What the body's stores leave, as the kernel's own arithmetic: the accumulator after a point is the body's update
  `k0_pay2` of the four input blocks and of the accumulator it started from (a cleared one, `k0_pay1`, at a first
  tile); the output block stored at a last tile is the reshaped copy `k0_pay3` of that update.  At any float instance.
-/
import proofs.«135900_j8332236554875_1_alg».proof.Proof.KiFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-buffer rectangle of two axes are all zero. -/
private theorem offsets_zero2 : (![0, 0] : Fin 2 → Nat) = fun _ => 0 := funext fun a => by fin_cases a <;> rfl
/-- The offsets of a whole-buffer rectangle of three axes are all zero. -/
private theorem offsets_zero3 : (![0, 0, 0] : Fin 3 → Nat) = fun _ => 0 := funext fun a => by fin_cases a <;> rfl

/-- First tile: the accumulator is stored twice, first cleared and then updated. The later store covers the buffer, so
    it alone is what remains; the update read the cleared value back, and every other load reads a whole input block. -/
theorem accFirst_eq (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : condFirst i) (hc1 : ¬condLast i) (x0 : Vec F S1x512x2048 .bf16) (x1 : Vec F S1x2048x1024 .bf16) (x2 : Vec F S1x2048x1024 .bf16) (x3 : Vec F S1x1024x2048 .bf16) :
    accFirst c i arg3 harg3 arg4 harg4 arg5 harg5 arg6 harg6 arg7 harg7 arg8 harg8 hc0 hc1 x0 x1 x2 x3 = k0_pay2 x0 x1 x2 (k0_pay1 (F := F)) x3 := by
  unfold accFirst
  rw [View.read_writes_eq_canon _ _ _ (scoverFirst c i arg3 harg3 arg4 harg4 arg5 harg5 arg6 harg6 arg7 harg7 arg8 harg8 hc0 hc1 x0 x1 x2 x3)]
  unfold runFirst
  dsimp only
  sl_unfold_words
  rw [View.canon_cons_unit_zero (S := S512x2048) offsets_zero2]
  simp only [View.readCov_unit_zero (S := S512x2048) _ offsets_zero2, View.readAt_eq_ld, harg3.read_unread, harg4.read_unread, harg5.read_unread, harg6.read_unread, harg8.read_unread,
    View.ld_unit_zero (S := S1x512x2048) offsets_zero3, View.ld_unit_zero (S := S1x2048x1024) offsets_zero3, View.ld_unit_zero (S := S1x1024x2048) offsets_zero3,
    View.ld_unit_zero (S := S512x2048) offsets_zero2]

/-- Middle tile: one store covers the accumulator; its payload's loads read the four input blocks and the accumulator
    as the point before left it. -/
theorem accMid_eq (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : ¬condLast i) (x0 : Vec F S1x512x2048 .bf16) (x1 : Vec F S1x2048x1024 .bf16) (x2 : Vec F S1x2048x1024 .bf16) (x3 : Vec F S1x1024x2048 .bf16) (xs0 : Vec F S512x2048 .f32) :
    accMid c i arg3 harg3 arg4 harg4 arg5 harg5 arg6 harg6 arg7 harg7 arg8 harg8 hc0 hc1 x0 x1 x2 x3 xs0 = k0_pay2 x0 x1 x2 xs0 x3 := by
  unfold accMid
  rw [View.read_writes_eq_canon _ _ _ (scoverMid c i arg3 harg3 arg4 harg4 arg5 harg5 arg6 harg6 arg7 harg7 arg8 harg8 hc0 hc1 x0 x1 x2 x3 xs0)]
  unfold runMid
  dsimp only
  sl_unfold_words
  rw [View.canon_unit_zero offsets_zero2]
  simp only [View.readAt_eq_ld, harg3.read_unread, harg4.read_unread, harg5.read_unread, harg6.read_unread, harg8.read_unread,
    View.ld_unit_zero (S := S1x512x2048) offsets_zero3, View.ld_unit_zero (S := S1x2048x1024) offsets_zero3, View.ld_unit_zero (S := S1x1024x2048) offsets_zero3,
    View.ld_unit_zero (S := S512x2048) offsets_zero2]

/-- Last tile, the accumulator: the same single covering store as at a middle tile. -/
theorem accLast_eq (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) :
    accLast c i arg3 harg3 arg4 harg4 arg5 harg5 arg6 harg6 arg7 harg7 arg8 harg8 hc0 hc1 x0 x1 x2 x3 xs0 = k0_pay2 x0 x1 x2 xs0 x3 := by
  unfold accLast
  rw [View.read_writes_eq_canon _ _ _ (scoverLast c i arg3 harg3 arg4 harg4 arg5 harg5 arg6 harg6 arg7 harg7 arg8 harg8 hc0 hc1 x0 x1 x2 x3 xs0)]
  unfold runLast
  dsimp only
  sl_unfold_words
  rw [View.canon_unit_zero offsets_zero2]
  simp only [View.readAt_eq_ld, harg3.read_unread, harg4.read_unread, harg5.read_unread, harg6.read_unread, harg8.read_unread,
    View.ld_unit_zero (S := S1x512x2048) offsets_zero3, View.ld_unit_zero (S := S1x2048x1024) offsets_zero3, View.ld_unit_zero (S := S1x1024x2048) offsets_zero3,
    View.ld_unit_zero (S := S512x2048) offsets_zero2]

/-- Last tile, the output block: one store covers it, whose payload reshapes the accumulator read back after the update
    just stored, so it is the reshaped copy of that update. -/
theorem outLast4_eq (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x512x2048 .f32) (harg7 : arg7.IsWhole) (arg8 : Memref sig .tc .vmem S512x2048 .f32) (harg8 : arg8.IsWhole) (hc0 : ¬condFirst i) (hc1 : condLast i) (x0 : Vec F S1x512x2048 .bf16) (x1 : Vec F S1x2048x1024 .bf16) (x2 : Vec F S1x2048x1024 .bf16) (x3 : Vec F S1x1024x2048 .bf16) (xs0 : Vec F S512x2048 .f32) :
    outLast4 c i arg3 harg3 arg4 harg4 arg5 harg5 arg6 harg6 arg7 harg7 arg8 harg8 hc0 hc1 x0 x1 x2 x3 xs0 = k0_pay3 (k0_pay2 x0 x1 x2 xs0 x3) := by
  unfold outLast4
  rw [View.read_writes_eq_canon _ _ _ (coverLast4 c i arg3 harg3 arg4 harg4 arg5 harg5 arg6 harg6 arg7 harg7 arg8 harg8 hc0 hc1 x0 x1 x2 x3 xs0)]
  unfold runLast
  dsimp only
  sl_unfold_words
  rw [View.canon_unit_zero offsets_zero3]
  simp only [View.readCov_unit_zero (S := S512x2048) _ offsets_zero2, View.readAt_eq_ld, harg3.read_unread, harg4.read_unread, harg5.read_unread, harg6.read_unread, harg8.read_unread,
    View.ld_unit_zero (S := S1x512x2048) offsets_zero3, View.ld_unit_zero (S := S1x2048x1024) offsets_zero3, View.ld_unit_zero (S := S1x1024x2048) offsets_zero3,
    View.ld_unit_zero (S := S512x2048) offsets_zero2]

end Cert.KernelIdeal.Hand

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KiPayAt.lean ====
/-
  The body's arithmetic read at one entry, over the extended reals.  With `x` the token block [1, 512, 2048], `g` and
  `u` the gate and up weight blocks [1, 2048, 1024], `d` the down weight block [1, 1024, 2048] and `acc` the accumulator
  [512, 2048]: entry (p, q) of the update is
    `acc[p, q] + ∑ k < 1024, (up_k * (gate_k * logistic gate_k)) * d[0, k, q]`,
  where `gate_k = ∑ h < 2048, x[0, p, h] * g[0, h, k]` and `up_k` the same over `u`.  Changes of float format are the
  identity here and a matrix product into a zero accumulator is the plain sum.
-/
import proofs.«135900_j8332236554875_1_alg».proof.Proof.Gen.KernelIdeal.Skeleton
import proofs.«135900_j8332236554875_1_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx

/-- The gate (or up) pre-activation of row `p` against column `k` of a weight block. -/
def dotRow (x : Vec Ideal S1x512x2048 .bf16) (w : Vec Ideal S1x2048x1024 .bf16) (p : Fin 512) (k : Fin 1024) : EReal :=
  ∑ h : Fin 2048, x (ix3 0 p h) * w (ix3 0 h k)

/-! ## Where the two products read their operands

Both products contract the left operand's second axis with the right operand's first and have no batch axis: the left
operand is read at (row, k), the right at (k, column).  One fact per operand axis, for each of the two dimension records. -/

/-- [512 × 2048] · [2048 × 1024]: the left operand's row is the result's row. -/
theorem lhsA_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- The left operand's column is the contraction position. -/
theorem lhsA_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- The right operand's row is the contraction position. -/
theorem rhsA_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- The right operand's column is the result's column. -/
theorem rhsA_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- [512 × 1024] · [1024 × 2048]: the left operand's row is the result's row. -/
theorem lhsB_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- The left operand's column is the contraction position. -/
theorem lhsB_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
/-- The right operand's row is the contraction position. -/
theorem rhsB_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
/-- The right operand's column is the result's column. -/
theorem rhsB_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-! ## The three payloads -/

/-- The cleared accumulator is zero everywhere. -/
theorem pay1_at (j : S512x2048.Idx) : k0_pay1 (F := Ideal) j = 0 := by
  unfold k0_pay1
  -- a cast to the same shape changes nothing; every entry of the broadcast is the zero word
  refine (congrFun (shapeCast_self _ _) j).trans ?_
  exact Ideal.ofBits_zero_f32

/-- The token block against a weight block, each with its unit axis dropped, into a zero accumulator: entry (p, k) is
    the row's sum `dotRow`. -/
theorem proj_at (x : Vec Ideal S1x512x2048 .bf16) (w : Vec Ideal S1x2048x1024 .bf16) (p : Fin 512) (k : Fin 1024) :
    FloatOps.matmul dot_S512x2048_S2048x1024_S512x1024_1_0_0_1_n_n none
        (shapeCast S512x2048 x shapeCasts_S1x512x2048_S512x2048 : FVec Ideal S512x2048 .bf16)
        (shapeCast S2048x1024 w shapeCasts_S1x2048x1024_S2048x1024 : FVec Ideal S2048x1024 .bf16)
        (constant (F := Ideal) S512x1024 .f32 0x00000000#32) (ix2 p k)
      = dotRow x w p k := by
  refine (MatmulAt.matmul_zero_at dot_S512x2048_S2048x1024_S512x1024_1_0_0_1_n_n rfl rfl lhsA_0 lhsA_1 rhsA_0 rhsA_1 none _ _ p k).trans ?_
  unfold dotRow
  refine Finset.sum_congr rfl fun h _ => ?_
  -- [1, a, b] cast to [a, b] reads (0, i, j) at (i, j)
  rw [shapeCast_1ab_ab_apply, shapeCast_1ab_ab_apply]

/-- Entry (p, q) of the body's update of the accumulator. -/
theorem pay2_at (x0 : Vec Ideal S1x512x2048 .bf16) (x1 x2 : Vec Ideal S1x2048x1024 .bf16) (acc : Vec Ideal S512x2048 .f32)
    (x3 : Vec Ideal S1x1024x2048 .bf16) (p : Fin 512) (q : Fin 2048) :
    k0_pay2 (F := Ideal) x0 x1 x2 acc x3 (ix2 p q)
      = acc (ix2 p q) + ∑ k : Fin 1024, (dotRow x0 x2 p k * (dotRow x0 x1 p k * Ideal.logistic (dotRow x0 x1 p k))) * x3 (ix3 0 k q) := by
  unfold k0_pay2
  -- the last cast keeps the shape; the sum is entrywise; the third product is the plain sum over k
  refine (congrFun (shapeCast_self _ _) (ix2 p q)).trans ?_
  refine congrArg (acc (ix2 p q) + ·) ?_
  refine (MatmulAt.matmul_zero_at dot_S512x1024_S1024x2048_S512x2048_1_0_0_1_n_n rfl rfl lhsB_0 lhsB_1 rhsB_0 rhsB_1 none _ _ p q).trans ?_
  refine Finset.sum_congr rfl fun k _ => ?_
  -- the right factor is the down block with its unit axis dropped
  refine congrArg₂ (· * ·) ?_ (shapeCast_1ab_ab_apply x3 _ k q)
  -- the left factor: the change of float format is the identity, the two products and the logistic are entrywise
  show FloatOps.matmul (F := Ideal) _ none _ _ _ (ix2 p k) * (FloatOps.matmul (F := Ideal) _ none _ _ _ (ix2 p k) * FloatOps.logistic (F := Ideal) (FloatOps.matmul (F := Ideal) _ none _ _ _ (ix2 p k))) = _
  rw [proj_at x0 x2 p k, proj_at x0 x1 p k]
  rfl

/-- The output block is the accumulator with a leading axis of extent one. -/
theorem pay3_at (v : Vec Ideal S512x2048 .f32) (p : Fin 512) (q : Fin 2048) :
    k0_pay3 (F := Ideal) v (ix3 0 p q) = v (ix2 p q) := by
  unfold k0_pay3
  exact shapeCast_ab_1ab_apply v _ 0 p q

end Cert.KernelIdeal.HandValue

end
-- ==== Proof.KiBlocks.lean ====
/-
  The windows' blocks read at an entry, as entries of the program's argument arrays, over the extended reals.

  Point n of the grid is (expert e = n / 8, token tile tt = n / 4 % 2, column tile b = n % 4).  Its token block is rows
  `e * 1024 + tt * 512 + p` of the flat token array; its gate block columns `b * 1024 + k` and its up block columns
  `4096 + b * 1024 + k` of expert e's gate/up weights; its down block rows `b * 1024 + k` of expert e's down weights.
  The host operations before the region (a reshape [8192, 2048] → [8, 1024, 2048] and changes of float format, which are
  the identity here) are read through.
-/
import proofs.«135900_j8332236554875_1_alg».proof.Proof.KiShared
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The argument arrays on core `c`. -/
abbrev argX (c : Dev nD) : Vec Ideal S8192x2048 .f32 := m ((c.tc : Thread nD τ).loc main_arg0)
abbrev argGU (c : Dev nD) : Vec Ideal S8x2048x8192 .f32 := m ((c.tc : Thread nD τ).loc main_arg1)
abbrev argDN (c : Dev nD) : Vec Ideal S8x4096x2048 .f32 := m ((c.tc : Thread nD τ).loc main_arg2)

/-- The four input blocks at a point, at their literal types. -/
abbrev xblk (c : Dev nD) (t : Fin cfg0.N) : Vec Ideal S1x512x2048 .bf16 := iblk m c 0 t
abbrev gblk (c : Dev nD) (t : Fin cfg0.N) : Vec Ideal S1x2048x1024 .bf16 := iblk m c 1 t
abbrev ublk (c : Dev nD) (t : Fin cfg0.N) : Vec Ideal S1x2048x1024 .bf16 := iblk m c 2 t
abbrev dblk (c : Dev nD) (t : Fin cfg0.N) : Vec Ideal S1x1024x2048 .bf16 := iblk m c 3 t

/-- The grid has 64 points. -/
theorem lt64 (t : Fin cfg0.N) : t.val < 64 := lt_of_lt_of_eq t.isLt (show cfg0.N = 64 from N_0)

/-! ## The windows' index maps, decided over the grid -/

/-- The token window's block index at a point: (expert, token tile, 0). -/
theorem tokIdx_facts : ∀ t : Fin cfg0.N, win0_0.index t (0 : Fin 3) = t.val / 8 ∧ win0_0.index t (1 : Fin 3) = t.val / 4 % 2 ∧ win0_0.index t (2 : Fin 3) = 0 :=
  (by decide +kernel : ∀ t : Fin grid0.N, win0_0.index t (0 : Fin 3) = t.val / 8 ∧ win0_0.index t (1 : Fin 3) = t.val / 4 % 2 ∧ win0_0.index t (2 : Fin 3) = 0)

/-- The gate window's block index: (expert, 0, column tile). -/
theorem gateIdx_facts : ∀ t : Fin cfg0.N, win0_1.index t (0 : Fin 3) = t.val / 8 ∧ win0_1.index t (1 : Fin 3) = 0 ∧ win0_1.index t (2 : Fin 3) = t.val % 4 :=
  (by decide +kernel : ∀ t : Fin grid0.N, win0_1.index t (0 : Fin 3) = t.val / 8 ∧ win0_1.index t (1 : Fin 3) = 0 ∧ win0_1.index t (2 : Fin 3) = t.val % 4)

/-- The up window's block index: (expert, 0, 4 + column tile), the second half of the gate/up columns. -/
theorem upIdx_facts : ∀ t : Fin cfg0.N, win0_2.index t (0 : Fin 3) = t.val / 8 ∧ win0_2.index t (1 : Fin 3) = 0 ∧ win0_2.index t (2 : Fin 3) = 4 + t.val % 4 :=
  (by decide +kernel : ∀ t : Fin grid0.N, win0_2.index t (0 : Fin 3) = t.val / 8 ∧ win0_2.index t (1 : Fin 3) = 0 ∧ win0_2.index t (2 : Fin 3) = 4 + t.val % 4)

/-- The down window's block index: (expert, column tile, 0). -/
theorem downIdx_facts : ∀ t : Fin cfg0.N, win0_3.index t (0 : Fin 3) = t.val / 8 ∧ win0_3.index t (1 : Fin 3) = t.val % 4 ∧ win0_3.index t (2 : Fin 3) = 0 :=
  (by decide +kernel : ∀ t : Fin grid0.N, win0_3.index t (0 : Fin 3) = t.val / 8 ∧ win0_3.index t (1 : Fin 3) = t.val % 4 ∧ win0_3.index t (2 : Fin 3) = 0)

/-! ## The windows' arrays as the region finds them -/

/-- The token array: the flat tokens regrouped by expert (a change of float format is the identity on extended reals). -/
theorem tokArr_eq (c : Dev nD) :
    (V m c main_v1 : S8x1024x2048.Idx → EReal) = shapeCast S8x1024x2048 (argX m c) shapeCasts_S8192x2048_S8x1024x2048 := by
  show StableHlo.after (List.flatten [hostOps0]) (fun b => m (c, b)) (Proc.devRef .tc main_v1) = _
  simp only [hostOps0, List.flatten_cons, List.flatten_nil, List.append_nil]; after_results <;> rfl

/-- The gate/up array is the argument. -/
theorem gateUpArr_eq (c : Dev nD) : (V m c main_v2 : S8x2048x8192.Idx → EReal) = argGU m c := by
  show StableHlo.after (List.flatten [hostOps0]) (fun b => m (c, b)) (Proc.devRef .tc main_v2) = _
  simp only [hostOps0, List.flatten_cons, List.flatten_nil, List.append_nil]; after_results <;> rfl

/-- The down array is the argument. -/
theorem downArr_eq (c : Dev nD) : (V m c main_v3 : S8x4096x2048.Idx → EReal) = argDN m c := by
  show StableHlo.after (List.flatten [hostOps0]) (fun b => m (c, b)) (Proc.devRef .tc main_v3) = _
  simp only [hostOps0, List.flatten_cons, List.flatten_nil, List.append_nil]; after_results <;> rfl

/-- Regrouping [8192, 2048] as [8, 1024, 2048] keeps row-major positions: entry (e, q, h) is row e * 1024 + q, column h. -/
theorem regroup_at (x : Vec Ideal S8192x2048 .f32) (e : Fin 8) (q : Fin 1024) (h : Fin 2048) :
    shapeCast S8x1024x2048 x shapeCasts_S8192x2048_S8x1024x2048 (ix3 e q h)
      = x (ix2 ⟨e.val * 1024 + q.val, by omega⟩ h) :=
  shapeCast_apply x shapeCasts_S8192x2048_S8x1024x2048 (ix3 e q h) (ix2 ⟨e.val * 1024 + q.val, by omega⟩ h)
    (by rw [Shape.rowMajor_val_two, Shape.rowMajor_val_three]
        show (e.val * 1024 + q.val) * 2048 + h.val = (e.val * 1024 + q.val) * 2048 + h.val
        rfl)

/-! ## The blocks at an entry -/

theorem xblk_at (c : Dev nD) (t : Fin cfg0.N) (p : Fin 512) (h : Fin 2048) :
    xblk m c t (ix3 0 p h)
      = argX m c (ix2 ⟨t.val / 8 * 1024 + (t.val / 4 % 2 * 512 + p.val), by have := lt64 t; omega⟩ h) := by
  obtain ⟨e0, e1, e2⟩ := tokIdx_facts t
  have hN := lt64 t
  have hblk : xblk m c t (ix3 0 p h)
      = V m c main_v1 (ix3 (⟨t.val / 8, by omega⟩ : Fin 8) (⟨t.val / 4 % 2 * 512 + p.val, by omega⟩ : Fin 1024) h) := by
    show V m c main_v1 (((cfg0.win 0).blk t).view.emb (ix3 0 p h)) = V m c main_v1 _
    refine congrArg (V m c main_v1) (funext fun a => Fin.ext ?_)
    match a with
    | ⟨0, _⟩ => show win0_0.index t (0 : Fin 3) * 1 + 1 * 0 = t.val / 8; omega
    | ⟨1, _⟩ => show win0_0.index t (1 : Fin 3) * 512 + 1 * p.val = t.val / 4 % 2 * 512 + p.val; omega
    | ⟨2, _⟩ => show win0_0.index t (2 : Fin 3) * 2048 + 1 * h.val = h.val; omega
  rw [hblk, tokArr_eq m c]
  exact regroup_at (argX m c) ⟨t.val / 8, by omega⟩ ⟨t.val / 4 % 2 * 512 + p.val, by omega⟩ h

theorem gblk_at (c : Dev nD) (t : Fin cfg0.N) (h : Fin 2048) (k : Fin 1024) :
    gblk m c t (ix3 0 h k)
      = argGU m c (ix3 ⟨t.val / 8, by have := lt64 t; omega⟩ h ⟨t.val % 4 * 1024 + k.val, by omega⟩) := by
  obtain ⟨e0, e1, e2⟩ := gateIdx_facts t
  rw [← gateUpArr_eq m c]
  show V m c main_v2 (((cfg0.win 1).blk t).view.emb (ix3 0 h k)) = V m c main_v2 _
  refine congrArg (V m c main_v2) (funext fun a => Fin.ext ?_)
  match a with
  | ⟨0, _⟩ => show win0_1.index t (0 : Fin 3) * 1 + 1 * 0 = t.val / 8; omega
  | ⟨1, _⟩ => show win0_1.index t (1 : Fin 3) * 2048 + 1 * h.val = h.val; omega
  | ⟨2, _⟩ => show win0_1.index t (2 : Fin 3) * 1024 + 1 * k.val = t.val % 4 * 1024 + k.val; omega

theorem ublk_at (c : Dev nD) (t : Fin cfg0.N) (h : Fin 2048) (k : Fin 1024) :
    ublk m c t (ix3 0 h k)
      = argGU m c (ix3 ⟨t.val / 8, by have := lt64 t; omega⟩ h ⟨4096 + (t.val % 4 * 1024 + k.val), by omega⟩) := by
  obtain ⟨e0, e1, e2⟩ := upIdx_facts t
  rw [← gateUpArr_eq m c]
  show V m c main_v2 (((cfg0.win 2).blk t).view.emb (ix3 0 h k)) = V m c main_v2 _
  refine congrArg (V m c main_v2) (funext fun a => Fin.ext ?_)
  match a with
  | ⟨0, _⟩ => show win0_2.index t (0 : Fin 3) * 1 + 1 * 0 = t.val / 8; omega
  | ⟨1, _⟩ => show win0_2.index t (1 : Fin 3) * 2048 + 1 * h.val = h.val; omega
  | ⟨2, _⟩ => show win0_2.index t (2 : Fin 3) * 1024 + 1 * k.val = 4096 + (t.val % 4 * 1024 + k.val); omega

theorem dblk_at (c : Dev nD) (t : Fin cfg0.N) (k : Fin 1024) (q : Fin 2048) :
    dblk m c t (ix3 0 k q)
      = argDN m c (ix3 ⟨t.val / 8, by have := lt64 t; omega⟩ ⟨t.val % 4 * 1024 + k.val, by omega⟩ q) := by
  obtain ⟨e0, e1, e2⟩ := downIdx_facts t
  rw [← downArr_eq m c]
  show V m c main_v3 (((cfg0.win 3).blk t).view.emb (ix3 0 k q)) = V m c main_v3 _
  refine congrArg (V m c main_v3) (funext fun a => Fin.ext ?_)
  match a with
  | ⟨0, _⟩ => show win0_3.index t (0 : Fin 3) * 1 + 1 * 0 = t.val / 8; omega
  | ⟨1, _⟩ => show win0_3.index t (1 : Fin 3) * 1024 + 1 * k.val = t.val % 4 * 1024 + k.val; omega
  | ⟨2, _⟩ => show win0_3.index t (2 : Fin 3) * 2048 + 1 * q.val = q.val; omega

end Cert.KernelIdeal.HandValue

end
-- ==== Proof.Spec.lean ====
/-
  The mathematics both programs compute, stated once over literal shapes and importing neither program.

  Tokens are grouped by expert: row `e * 1024 + t` of the flat hidden-state array `x : [8192, 2048]` is token `t`
  of expert `e`.  For that token, `proj j = ∑ h, x[e*1024+t, h] * gu[e, h, j]` is the gate/up projection; column
  `i < 4096` of it is the gate, column `4096 + i` the up value.  The SwiGLU intermediate is
  `inter i = up i * (gate i * logistic (gate i))`, and the expert's output is
  `out3 e t h = ∑ i < 4096, inter i * dn[e, i, h]`.  The result array is `out3` laid out flat again.

  The kernel does not form the sum over `i` at once: it walks the 4096 columns in four tiles of 1024, starting an
  accumulator at zero and adding one tile's partial sum per grid step.  `tileAcc` is that accumulator and
  `tileAcc_last` says the last one is the whole sum — only commutativity and associativity of `+` on the
  extended reals are used, so no finiteness is needed.
-/
import Idealize.ShloMosaic.PureOps.Ideal
import Idealize.ShloMosaic.Lib.ValueIdx

noncomputable section

namespace Cert.MoeSpec

open Idealize.ShloMosaic Idealize.ShloMosaic.ValueIdx

abbrev SX : Shape := ⟨2, ![8192, 2048]⟩
abbrev SGU : Shape := ⟨3, ![8, 2048, 8192]⟩
abbrev SDN : Shape := ⟨3, ![8, 4096, 2048]⟩

/-- Row of the flat token array holding token `t` of expert `e`. -/
def row (e : Fin 8) (t : Fin 1024) : Fin 8192 := ⟨e.val * 1024 + t.val, by omega⟩

/-- Column of the gate half. -/
def gateCol (i : Fin 4096) : Fin 8192 := ⟨i.val, by omega⟩
/-- Column of the up half. -/
def upCol (i : Fin 4096) : Fin 8192 := ⟨4096 + i.val, by omega⟩

/-- The gate/up projection of one token: `x[e,t,:] · gu[e,:,j]`. -/
def proj (x : SX.Idx → EReal) (gu : SGU.Idx → EReal) (e : Fin 8) (t : Fin 1024) (j : Fin 8192) : EReal :=
  ∑ h : Fin 2048, x (ix2 (row e t) h) * gu (ix3 e h j)

/-- SwiGLU: `up * (gate * logistic gate)`. -/
def inter (x : SX.Idx → EReal) (gu : SGU.Idx → EReal) (e : Fin 8) (t : Fin 1024) (i : Fin 4096) : EReal :=
  proj x gu e t (upCol i) * (proj x gu e t (gateCol i) * Ideal.logistic (proj x gu e t (gateCol i)))

/-- One summand of the down projection. -/
def term (x : SX.Idx → EReal) (gu : SGU.Idx → EReal) (dn : SDN.Idx → EReal) (e : Fin 8) (t : Fin 1024) (h : Fin 2048)
    (i : Fin 4096) : EReal :=
  inter x gu e t i * dn (ix3 e i h)

/-- The expert's output for one token and one hidden column. -/
def out3 (x : SX.Idx → EReal) (gu : SGU.Idx → EReal) (dn : SDN.Idx → EReal) (e : Fin 8) (t : Fin 1024) (h : Fin 2048) : EReal :=
  ∑ i : Fin 4096, term x gu dn e t h i

/-- The result array: `out3` laid out flat, row `r = e * 1024 + t`. -/
def G (x : SX.Idx → EReal) (gu : SGU.Idx → EReal) (dn : SDN.Idx → EReal) : SX.Idx → EReal := fun r =>
  out3 x gu dn ⟨(r 0).val / 1024, by have h : (r 0).val < 8192 := (r 0).isLt; show (r 0).val / 1024 < 8; omega⟩
    ⟨(r 0).val % 1024, Nat.mod_lt _ (by decide)⟩ ⟨(r 1).val, (r 1).isLt⟩

/-- Column `b * 1024 + k`: entry `k` of tile `b`. -/
def tileCol (b : Fin 4) (k : Fin 1024) : Fin 4096 := ⟨b.val * 1024 + k.val, by omega⟩

/-- One tile's partial sum. -/
def tileSum (f : Fin 4096 → EReal) (b : Fin 4) : EReal := ∑ k : Fin 1024, f (tileCol b k)

/-- The accumulator after tile `b`: zero plus the first tile's sum, then one more tile's sum per step. -/
def tileAcc (f : Fin 4096 → EReal) : (b : Nat) → b < 4 → EReal
  | 0, hb => 0 + tileSum f ⟨0, hb⟩
  | b + 1, hb => tileAcc f b (Nat.lt_of_succ_lt hb) + tileSum f ⟨b + 1, hb⟩

/-- The 4096 columns are the four tiles of 1024 side by side: column `i` is entry `i % 1024` of tile `i / 1024`. -/
def tileEquiv : Fin 4 × Fin 1024 ≃ Fin 4096 where
  toFun p := tileCol p.1 p.2
  invFun i := (⟨i.val / 1024, by have h : i.val < 4096 := i.isLt; omega⟩, ⟨i.val % 1024, Nat.mod_lt _ (by decide)⟩)
  left_inv p := by
    obtain ⟨b, k⟩ := p
    have hb : b.val < 4 := b.isLt
    have hk : k.val < 1024 := k.isLt
    refine Prod.ext (Fin.ext ?_) (Fin.ext ?_)
    · show (b.val * 1024 + k.val) / 1024 = b.val
      omega
    · show (b.val * 1024 + k.val) % 1024 = k.val
      omega
  right_inv i := by
    refine Fin.ext ?_
    show i.val / 1024 * 1024 + i.val % 1024 = i.val
    omega

/-- The whole sum is the sum of the four tiles' partial sums (re-indexing along `tileEquiv`). -/
theorem sum_eq_sum_tileSum (f : Fin 4096 → EReal) : ∑ i : Fin 4096, f i = ∑ b : Fin 4, tileSum f b := by
  rw [← Equiv.sum_comp tileEquiv f, Fintype.sum_prod_type]
  rfl

/-- After the fourth tile the accumulator is the whole sum. -/
theorem tileAcc_last (f : Fin 4096 → EReal) : tileAcc f 3 (by decide) = ∑ i : Fin 4096, f i := by
  rw [sum_eq_sum_tileSum, Fin.sum_univ_four]
  show 0 + tileSum f ⟨0, by decide⟩ + tileSum f ⟨1, by decide⟩ + tileSum f ⟨2, by decide⟩ + tileSum f ⟨3, by decide⟩ = _
  rw [zero_add]
  rfl

end Cert.MoeSpec

end
-- ==== Proof.KiValue.lean ====
/-
  The kernel's result over the extended reals: after the last grid point the output array [8, 1024, 2048] holds, at
  (e, r, q), the whole down-projection sum `out3 e r q` of the specification; laid out flat it is the specification's `G`.

  Point n = (e, tt, b) updates the accumulator of token tile (e, tt): after it, entry (p, q) is the specification's
  running sum `tileAcc` over tiles 0..b of the terms of token `tt * 512 + p` (induction on b: a first tile starts from
  zero, a later tile adds its partial sum to what the point before left).  At b = 3 the block written back is that
  accumulator, which is the whole sum (`tileAcc_last`); the 16 blocks written back tile the output array.
-/
import proofs.«135900_j8332236554875_1_alg».proof.Proof.KiPieces
import proofs.«135900_j8332236554875_1_alg».proof.Proof.KiPayAt
import proofs.«135900_j8332236554875_1_alg».proof.Proof.KiBlocks
import proofs.«135900_j8332236554875_1_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

open Cert.MoeSpec (term inter proj out3 tileAcc tileSum tileCol gateCol upCol row tileAcc_last)

/-! ## The running sum, by the tile's number -/

/-- At the first tile the running sum is zero plus that tile's partial sum. -/
theorem tileAcc_of_eq_zero (f : Fin 4096 → EReal) (b : ℕ) (hb : b < 4) (h : b = 0) :
    tileAcc f b hb = 0 + tileSum f ⟨b, hb⟩ := by
  subst h; rfl

/-- At a later tile it is the running sum of the tile before plus this tile's partial sum. -/
theorem tileAcc_of_ne_zero (f : Fin 4096 → EReal) (b : ℕ) (hb : b < 4) (h : b ≠ 0) :
    tileAcc f b hb = tileAcc f (b - 1) (by omega) + tileSum f ⟨b, hb⟩ := by
  cases b with
  | zero => exact absurd rfl h
  | succ b => rfl

/-- The expert's output depends on its three coordinates through their values only. -/
theorem out3_congr (X : Cert.MoeSpec.SX.Idx → EReal) (GU : Cert.MoeSpec.SGU.Idx → EReal) (DN : Cert.MoeSpec.SDN.Idx → EReal)
    {e e' : Fin 8} {r r' : Fin 1024} {q q' : Fin 2048} (he : e.val = e'.val) (hr : r.val = r'.val) (hq : q.val = q'.val) :
    out3 X GU DN e r q = out3 X GU DN e' r' q' := by
  obtain rfl := Fin.ext he
  obtain rfl := Fin.ext hr
  obtain rfl := Fin.ext hq
  rfl

/-! ## One point's partial sum -/

/-- What point `t` adds at entry (p, q) of the accumulator, over its four blocks: the sum over the tile's 1024 columns
    of `up * (gate * logistic gate)` times the down weight. -/
def blkSum (c : Dev nD) (t : Fin cfg0.N) (p : Fin 512) (q : Fin 2048) : EReal :=
  ∑ k : Fin 1024, (dotRow (xblk m c t) (ublk m c t) p k
    * (dotRow (xblk m c t) (gblk m c t) p k * Ideal.logistic (dotRow (xblk m c t) (gblk m c t) p k))) * dblk m c t (ix3 0 k q)

/-- It is the specification's partial sum of tile `b = t % 4` for token `tt * 512 + p` of expert `e`: the blocks are
    the rows, columns and weights the specification's term reads. -/
theorem blkSum_eq (c : Dev nD) (t : Fin cfg0.N) (e : Fin 8) (tt : Fin 2) (b : Fin 4)
    (he : e.val = t.val / 8) (htt : tt.val = t.val / 4 % 2) (hb : b.val = t.val % 4) (p : Fin 512) (q : Fin 2048) :
    blkSum m c t p q
      = tileSum (fun i => term (argX m c) (argGU m c) (argDN m c) e
          ⟨tt.val * 512 + p.val, by have h1 := tt.isLt; have h2 := p.isLt; omega⟩ q i) b := by
  have h64 := lt64 t
  have hlt8 : t.val / 8 < 8 := by clear he htt hb; omega
  have hlt2 : t.val / 4 % 2 < 2 := by clear he htt hb; omega
  have hlt4 : t.val % 4 < 4 := by clear he htt hb; omega
  obtain rfl : e = ⟨t.val / 8, hlt8⟩ := Fin.ext he
  obtain rfl : tt = ⟨t.val / 4 % 2, hlt2⟩ := Fin.ext htt
  obtain rfl : b = ⟨t.val % 4, hlt4⟩ := Fin.ext hb
  have hdot : ∀ (w : Vec Ideal S1x2048x1024 .bf16) (j : Fin 8192) (k : Fin 1024),
      (∀ h : Fin 2048, w (ix3 0 h k) = argGU m c (ix3 (⟨t.val / 8, by omega⟩ : Fin 8) h j)) →
      dotRow (xblk m c t) w p k
        = proj (argX m c) (argGU m c) (⟨t.val / 8, by omega⟩ : Fin 8) (⟨t.val / 4 % 2 * 512 + p.val, by have h2 := p.isLt; omega⟩ : Fin 1024) j := by
    intro w j k hw
    unfold dotRow proj
    refine Finset.sum_congr rfl fun h _ => ?_
    exact congrArg₂ (fun a b => a * b) (xblk_at m c t p h) (hw h)
  unfold blkSum tileSum
  refine Finset.sum_congr rfl fun k _ => ?_
  have hu := hdot (ublk m c t) (upCol (tileCol (⟨t.val % 4, by omega⟩ : Fin 4) k)) k (fun h => ublk_at m c t h k)
  have hg := hdot (gblk m c t) (gateCol (tileCol (⟨t.val % 4, by omega⟩ : Fin 4) k)) k (fun h => gblk_at m c t h k)
  rw [hu, hg, dblk_at m c t k q]
  rfl

/-! ## The accumulator and the output block after one point, from the point before -/

/-- A first tile starts from zero. -/
theorem acc_first (c : Dev nD) (t : Fin cfg0.N) (h0 : t.val % 4 = 0) (h1 : ¬t.val % 4 = 3) (p : Fin 512) (q : Fin 2048) :
    (outsAt0 m c t.val t.isLt).2 (ix2 p q) = 0 + blkSum m c t p q := by
  rw [outsAt0_first m c t h0 h1]
  dsimp only
  refine (congrFun (accFirst_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcondFirst t).mpr h0) (fun h => h1 ((hcondLast t).mp h)) (xblk m c t) (gblk m c t) (ublk m c t) (dblk m c t)) (ix2 p q)).trans ?_
  refine (pay2_at (xblk m c t) (gblk m c t) (ublk m c t) (k0_pay1 (F := Ideal)) (dblk m c t) p q).trans ?_
  rw [pay1_at]
  rfl

/-- A middle tile adds to what the point before left. -/
theorem acc_mid (c : Dev nD) (t : Fin cfg0.N) (h0 : ¬t.val % 4 = 0) (h1 : ¬t.val % 4 = 3) (p : Fin 512) (q : Fin 2048) :
    (outsAt0 m c t.val t.isLt).2 (ix2 p q) = (outsAt0 m c (t.val - 1) (Nat.lt_of_le_of_lt (Nat.sub_le _ _) t.isLt)).2 (ix2 p q) + blkSum m c t p q := by
  rw [outsAt0_mid m c t h0 h1]
  dsimp only
  refine (congrFun (accMid_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) (fun h => h1 ((hcondLast t).mp h)) (xblk m c t) (gblk m c t) (ublk m c t) (dblk m c t) (outsAt0 m c (t.val - 1) (Nat.lt_of_le_of_lt (Nat.sub_le _ _) t.isLt)).2) (ix2 p q)).trans ?_
  exact pay2_at (xblk m c t) (gblk m c t) (ublk m c t) (outsAt0 m c (t.val - 1) (Nat.lt_of_le_of_lt (Nat.sub_le _ _) t.isLt)).2 (dblk m c t) p q

/-- So does the last tile. -/
theorem acc_last (c : Dev nD) (t : Fin cfg0.N) (h0 : ¬t.val % 4 = 0) (h1 : t.val % 4 = 3) (p : Fin 512) (q : Fin 2048) :
    (outsAt0 m c t.val t.isLt).2 (ix2 p q) = (outsAt0 m c (t.val - 1) (Nat.lt_of_le_of_lt (Nat.sub_le _ _) t.isLt)).2 (ix2 p q) + blkSum m c t p q := by
  rw [outsAt0_last m c t h0 h1]
  dsimp only
  refine (congrFun (accLast_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) ((hcondLast t).mpr h1) (xblk m c t) (gblk m c t) (ublk m c t) (dblk m c t) (outsAt0 m c (t.val - 1) (Nat.lt_of_le_of_lt (Nat.sub_le _ _) t.isLt)).2) (ix2 p q)).trans ?_
  exact pay2_at (xblk m c t) (gblk m c t) (ublk m c t) (outsAt0 m c (t.val - 1) (Nat.lt_of_le_of_lt (Nat.sub_le _ _) t.isLt)).2 (dblk m c t) p q

/-- At a last tile the output block stored is the accumulator just updated. -/
theorem out_last (c : Dev nD) (t : Fin cfg0.N) (h0 : ¬t.val % 4 = 0) (h1 : t.val % 4 = 3) (p : Fin 512) (q : Fin 2048) :
    (outsAt0 m c t.val t.isLt).1 (ix3 0 p q) = (outsAt0 m c t.val t.isLt).2 (ix2 p q) := by
  rw [outsAt0_last m c t h0 h1]
  dsimp only
  refine (congrFun (outLast4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) ((hcondLast t).mpr h1) (xblk m c t) (gblk m c t) (ublk m c t) (dblk m c t) (outsAt0 m c (t.val - 1) (Nat.lt_of_le_of_lt (Nat.sub_le _ _) t.isLt)).2) (ix3 0 p q)).trans ?_
  refine (pay3_at (k0_pay2 (F := Ideal) (xblk m c t) (gblk m c t) (ublk m c t) (outsAt0 m c (t.val - 1) (Nat.lt_of_le_of_lt (Nat.sub_le _ _) t.isLt)).2 (dblk m c t)) p q).trans ?_
  exact (congrFun (accLast_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcondFirst t).mp h)) ((hcondLast t).mpr h1) (xblk m c t) (gblk m c t) (ublk m c t) (dblk m c t) (outsAt0 m c (t.val - 1) (Nat.lt_of_le_of_lt (Nat.sub_le _ _) t.isLt)).2) (ix2 p q)).symm

/-! ## The accumulator after every point is the specification's running sum -/

/-- After point `n = (e, tt, b)` entry (p, q) of the accumulator is the running sum over tiles `0 … b` of the terms of
    token `tt * 512 + p` of expert `e` — by induction on the point: a first tile starts from zero, a later tile is in
    the same expert and token tile as the point before and one tile further. -/
theorem acc_eq (c : Dev nD) (n : ℕ) : ∀ (hn : n < cfg0.N) (e : Fin 8) (tt : Fin 2) (b : Fin 4),
    e.val = n / 8 → tt.val = n / 4 % 2 → b.val = n % 4 → ∀ (p : Fin 512) (q : Fin 2048),
    (outsAt0 m c n hn).2 (ix2 p q)
      = tileAcc (fun i => term (argX m c) (argGU m c) (argDN m c) e
          ⟨tt.val * 512 + p.val, by have h1 := tt.isLt; have h2 := p.isLt; omega⟩ q i) b.val b.isLt := by
  induction n using Nat.strong_induction_on with
  | _ n ih =>
    intro hn e tt b he htt hb p q
    have h64 : n < 64 := lt_of_lt_of_eq hn N_0
    by_cases h0 : n % 4 = 0
    · have h1 : ¬n % 4 = 3 := by omega
      rw [tileAcc_of_eq_zero _ b.val b.isLt (by omega)]
      refine (acc_first m c ⟨n, hn⟩ h0 h1 p q).trans ?_
      exact congrArg (fun s => 0 + s) (blkSum_eq m c ⟨n, hn⟩ e tt b he htt hb p q)
    · have hb0 : b.val ≠ 0 := by omega
      have hstep : (outsAt0 m c n hn).2 (ix2 p q)
          = (outsAt0 m c (n - 1) (Nat.lt_of_le_of_lt (Nat.sub_le _ _) hn)).2 (ix2 p q) + blkSum m c ⟨n, hn⟩ p q := by
        by_cases h1 : n % 4 = 3
        · exact acc_last m c ⟨n, hn⟩ h0 h1 p q
        · exact acc_mid m c ⟨n, hn⟩ h0 h1 p q
      rw [tileAcc_of_ne_zero _ b.val b.isLt hb0, hstep,
        ih (n - 1) (by omega) (Nat.lt_of_le_of_lt (Nat.sub_le _ _) hn) e tt ⟨b.val - 1, by omega⟩ (by omega) (by omega)
          (by show b.val - 1 = (n - 1) % 4; omega) p q]
      exact congrArg (fun s => _ + s) (blkSum_eq m c ⟨n, hn⟩ e tt b he htt hb p q)

/-- At a last tile the output block stored holds the whole sum: the expert's output for its tokens. -/
theorem out_last_eq (c : Dev nD) (t : Fin cfg0.N) (h3 : t.val % 4 = 3) (e : Fin 8) (tt : Fin 2)
    (he : e.val = t.val / 8) (htt : tt.val = t.val / 4 % 2) (p : Fin 512) (q : Fin 2048) :
    (outsAt0 m c t.val t.isLt).1 (ix3 0 p q)
      = out3 (argX m c) (argGU m c) (argDN m c) e ⟨tt.val * 512 + p.val, by have h1 := tt.isLt; have h2 := p.isLt; omega⟩ q := by
  rw [out_last m c t (by omega) h3 p q, acc_eq m c t.val t.isLt e tt ⟨3, by decide⟩ he htt h3.symm p q]
  exact tileAcc_last _

/-! ## The output array after the region -/

/-- The whole output array: at (e, r, q) the expert's output for token `r` and hidden column `q`. -/
def Gout (c : Dev nD) : Vec Ideal S8x1024x2048 .f32 := fun i =>
  out3 (argX m c) (argGU m c) (argDN m c) ⟨(i 0).val, (i 0).isLt⟩ ⟨(i 1).val, (i 1).isLt⟩ ⟨(i 2).val, (i 2).isLt⟩

/-- The output window's block index at point `t = (e, tt, b)` is (e, tt, 0). -/
theorem idx_out : ∀ t : Fin cfg0.N, win0_4.index t (0 : Fin 3) = t.val / 8 ∧ win0_4.index t (1 : Fin 3) = t.val / 4 % 2
    ∧ win0_4.index t (2 : Fin 3) = 0 :=
  (by decide +kernel : ∀ t : Fin grid0.N, win0_4.index t (0 : Fin 3) = t.val / 8 ∧ win0_4.index t (1 : Fin 3) = t.val / 4 % 2
    ∧ win0_4.index t (2 : Fin 3) = 0)

/-- What a last tile writes back is its block of the whole output array. -/
theorem flushed_eq (c : Dev nD) (t : Fin cfg0.N) (hf : (cfg0.win 4).flush t = true) :
    (dats (F := Ideal) m 0 c).flushed 4 t = ((cfg0.win 4).blk t).view.read (Elt Ideal) (Gout m c) := by
  have h3 : t.val % 4 = 3 := (flush0_4 t).mp hf
  have h64 := lt64 t
  obtain ⟨i0, i1, i2⟩ := idx_out t
  show (cfg0.win 4).cut (grid0.coords t) ((dats m 0 c).after 4 t) = _
  rw [after0_4]
  funext j
  obtain ⟨z, p, q, rfl⟩ : ∃ (z : Fin 1) (p : Fin 512) (q : Fin 2048), j = ix3 z p q := ⟨j 0, j 1, j 2, eq_ix3 j⟩
  obtain rfl : z = 0 := Subsingleton.elim _ _
  show (outsAt0 m c t.val t.isLt).1 (ix3 0 p q) = Gout m c (((cfg0.win 4).blk t).view.emb (ix3 0 p q))
  rw [out_last_eq m c t h3 ⟨t.val / 8, by omega⟩ ⟨t.val / 4 % 2, by omega⟩ rfl rfl p q]
  unfold Gout
  refine out3_congr _ _ _ ?_ ?_ ?_
  · show t.val / 8 = win0_4.index t (0 : Fin 3) * 1 + 1 * 0
    omega
  · show t.val / 4 % 2 * 512 + p.val = win0_4.index t (1 : Fin 3) * 512 + 1 * p.val
    omega
  · show q.val = win0_4.index t (2 : Fin 3) * 2048 + 1 * q.val
    omega

/-- An index of the output array is in point `t`'s block iff each coordinate is in the block's range on its axis. -/
theorem mem_blk_out (t : Fin cfg0.N) (i : S8x1024x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4).slice (win0_4.rect t)).set ↔ _
  rw [View.set_slice_whole, Rect.mem_set_unit]
  exact Iff.rfl

/-- The sixteen blocks written back tile the output array (row `r` of expert `e` is in the block of the last tile of
    token tile `r / 512`), so after the region it holds the experts' outputs. -/
theorem final_out (c : Dev nD) : (dats (F := Ideal) m 0 c).arrAt 4 cfg0.N = Gout m c :=
  (dats m 0 c).arrAt_eq_of_cover 4 (Gout m c) (flushed_eq m c) fun i => by
    have h0 : (i 0).val < 8 := (i 0).isLt
    have h1 : (i 1).val < 1024 := (i 1).isLt
    have h2 : (i 2).val < 2048 := (i 2).isLt
    obtain ⟨t, ht⟩ : ∃ t : Fin cfg0.N, t.val = (i 0).val * 8 + (i 1).val / 512 * 4 + 3 :=
      ⟨⟨(i 0).val * 8 + (i 1).val / 512 * 4 + 3, by rw [show cfg0.N = 64 from N_0]; omega⟩, rfl⟩
    obtain ⟨i0, i1, i2⟩ := idx_out t
    refine ⟨t, (flush0_4 t).mpr (by omega), ?_⟩
    rw [mem_blk_out]
    intro a
    match a with
    | ⟨0, _⟩ =>
      show win0_4.index t (0 : Fin 3) * 1 ≤ (i 0).val ∧ (i 0).val < win0_4.index t (0 : Fin 3) * 1 + 1
      omega
    | ⟨1, _⟩ =>
      show win0_4.index t (1 : Fin 3) * 512 ≤ (i 1).val ∧ (i 1).val < win0_4.index t (1 : Fin 3) * 512 + 512
      omega
    | ⟨2, _⟩ =>
      show win0_4.index t (2 : Fin 3) * 2048 ≤ (i 2).val ∧ (i 2).val < win0_4.index t (2 : Fin 3) * 2048 + 2048
      omega

/-- The output array after the region, reshaped to the flat result, is the specification's function of the
    argument arrays. -/
theorem result_eq (c : Dev nD) :
    shapeCast S8192x2048 (((dats (F := Ideal) m 0 c).arrAt 4 cfg0.N : Vec Ideal S8x1024x2048 .f32)) shapeCasts_S8x1024x2048_S8192x2048
      = Cert.MoeSpec.G (argX m c) (argGU m c) (argDN m c) := by
  rw [final_out]
  funext r
  obtain ⟨a, b, rfl⟩ : ∃ (a : Fin 8192) (b : Fin 2048), r = ix2 a b := ⟨r 0, r 1, eq_ix2 r⟩
  have ha : a.val < 8192 := a.isLt
  have hb : b.val < 2048 := b.isLt
  refine (shapeCast_apply (Gout m c) shapeCasts_S8x1024x2048_S8192x2048 (ix2 a b)
    (ix3 (⟨a.val / 1024, by omega⟩ : Fin 8) (⟨a.val % 1024, by omega⟩ : Fin 1024) b) ?_).trans rfl
  rw [Shape.rowMajor_val_three, Shape.rowMajor_val_two]
  show (a.val / 1024 * 1024 + a.val % 1024) * 2048 + b.val = a.val * 2048 + b.val
  omega

end Cert.KernelIdeal.HandValue

end
-- ==== Proof.RefIsG.lean ====
import proofs.«135900_j8332236554875_1_alg».proof.Defs
import proofs.«135900_j8332236554875_1_alg».proof.Proof.Gen.ReferenceIdeal.Run
import proofs.«135900_j8332236554875_1_alg».proof.Proof.Gen.ReferenceIdeal.Read
import proofs.«135900_j8332236554875_1_alg».proof.Proof.Spec

/-
  The reference computes the specification `G`, read index by index over the extended reals.

  The reference reshapes the flat token array to `[8, 1024, 2048]` (row `e * 1024 + t` becomes token `t` of expert
  `e`), contracts it with the gate/up weights over the hidden axis, slices the result into its gate half (columns
  `i`) and its up half (columns `4096 + i`), forms `up * (gate * (1 / (1 + exp (-gate))))`, contracts that with the
  down weights over the 4096 intermediate columns, and reshapes back to `[8192, 2048]`.  Each stage is read at an
  index whose coordinates are variables of the literal ranges; the index maps of the reshapes are Euclidean
  division by 1024 and by 2048, and `1 / (1 + exp (-g))` is the logistic function by definition.
-/

noncomputable section

namespace Cert.RefIsG

open Idealize.ShloMosaic Idealize.ShloMosaic.ValueIdx Cert.ReferenceIdeal Cert.ReferenceIdeal.Read Cert.MoeSpec

/-- The word `0x3F800000` denotes the real number one. -/
theorem ofBits_one_f32 : Ideal.ofBits .f32 0x3F800000#32 = 1 := by
  simp [Ideal.ofBits, Ideal.ieee, -EReal.coe_mul]; norm_num

/-! ## The index maps, at coordinates -/

/-- Reshaping `[8192, 2048]` to `[8, 1024, 2048]`: element `(e, t, k)` is element `(e * 1024 + t, k)`. -/
theorem idx_tokens (e : Fin 8) (t : Fin 1024) (j : Fin 8192) (k : Fin 2048) :
    idx_main_v0 (lidx_main_v1 (ix3 e t j) k) = ix2 (row e t) k := by
  have he : e.val < 8 := e.isLt
  have ht : t.val < 1024 := t.isLt
  have hk : k.val < 2048 := k.isLt
  funext a
  refine Fin.ext ?_
  match a with
  | ⟨0, _⟩ =>
    show ((e.val * 1024 + t.val) * 2048 + k.val) / 2048 = e.val * 1024 + t.val
    omega
  | ⟨1, _⟩ =>
    show ((e.val * 1024 + t.val) * 2048 + k.val) % 2048 = k.val
    omega

/-- The weight read by the first contraction at `(e, t, j)` and summand `k` is `gu[e, k, j]`. -/
theorem ridx_proj (e : Fin 8) (t : Fin 1024) (j : Fin 8192) (k : Fin 2048) :
    ridx_main_v1 (ix3 e t j) k = ix3 e k j := by
  funext a
  refine Fin.ext ?_
  match a with
  | ⟨0, _⟩ => rfl
  | ⟨1, _⟩ => rfl
  | ⟨2, _⟩ => rfl

/-- The gate half is columns `i` of the projection. -/
theorem idx_gate (e : Fin 8) (t : Fin 1024) (i : Fin 4096) :
    idx_main_v2 (ix3 e t i) = ix3 e t (gateCol i) := by
  funext a
  refine Fin.ext ?_
  match a with
  | ⟨0, _⟩ => rfl
  | ⟨1, _⟩ => rfl
  | ⟨2, _⟩ => rfl

/-- The up half is columns `4096 + i` of the projection. -/
theorem idx_up (e : Fin 8) (t : Fin 1024) (i : Fin 4096) :
    idx_main_v3 (ix3 e t i) = ix3 e t (upCol i) := by
  funext a
  refine Fin.ext ?_
  match a with
  | ⟨0, _⟩ => rfl
  | ⟨1, _⟩ => rfl
  | ⟨2, _⟩ => rfl

/-- The intermediate read by the second contraction at `(e, t, h)` and summand `i` is `inter[e, t, i]`. -/
theorem lidx_down (e : Fin 8) (t : Fin 1024) (h : Fin 2048) (i : Fin 4096) :
    lidx_main_v6 (ix3 e t h) i = ix3 e t i := by
  funext a
  refine Fin.ext ?_
  match a with
  | ⟨0, _⟩ => rfl
  | ⟨1, _⟩ => rfl
  | ⟨2, _⟩ => rfl

/-- The weight read by the second contraction at `(e, t, h)` and summand `i` is `dn[e, i, h]`. -/
theorem ridx_down (e : Fin 8) (t : Fin 1024) (h : Fin 2048) (i : Fin 4096) :
    ridx_main_v6 (ix3 e t h) i = ix3 e i h := by
  funext a
  refine Fin.ext ?_
  match a with
  | ⟨0, _⟩ => rfl
  | ⟨1, _⟩ => rfl
  | ⟨2, _⟩ => rfl

/-- Reshaping `[8, 1024, 2048]` back to `[8192, 2048]`: row `a` is token `a % 1024` of expert `a / 1024`. -/
theorem idx_flat (a : Fin 8192) (b : Fin 2048) :
    idx_main_v7 (ix2 a b)
      = ix3 (⟨a.val / 1024, by have h : a.val < 8192 := a.isLt; omega⟩ : Fin 8)
          (⟨a.val % 1024, Nat.mod_lt _ (by decide)⟩ : Fin 1024) b := by
  have ha : a.val < 8192 := a.isLt
  have hb : b.val < 2048 := b.isLt
  funext c
  refine Fin.ext ?_
  match c with
  | ⟨0, _⟩ =>
    show (a.val * 2048 + b.val) / 2097152 = a.val / 1024
    omega
  | ⟨1, _⟩ =>
    show (a.val * 2048 + b.val) / 2048 % 1024 = a.val % 1024
    omega
  | ⟨2, _⟩ =>
    show (a.val * 2048 + b.val) % 2048 = b.val
    omega

/-! ## The stages, at coordinates -/

section Stages

variable (x0 : (⟨S8192x2048, .f32⟩ : BufTy).Contents (Elt Ideal))
  (x1 : (⟨S8x2048x8192, .f32⟩ : BufTy).Contents (Elt Ideal))
  (x2 : (⟨S8x4096x2048, .f32⟩ : BufTy).Contents (Elt Ideal))

/-- The first contraction is the gate/up projection. -/
theorem proj_eq (e : Fin 8) (t : Fin 1024) (j : Fin 8192) :
    val_main_v1 (F := Ideal) x0 x1 (ix3 e t j) = proj x0 x1 e t j := by
  rw [val_main_v1_apply]
  unfold proj
  refine Finset.sum_congr rfl fun k _ => ?_
  rw [val_main_v0_apply, idx_tokens, ridx_proj]

/-- The first slice is the gate. -/
theorem gate_eq (e : Fin 8) (t : Fin 1024) (i : Fin 4096) :
    val_main_v2 (F := Ideal) x0 x1 (ix3 e t i) = proj x0 x1 e t (gateCol i) := by
  rw [val_main_v2_apply, idx_gate, proj_eq]

/-- The second slice is the up value. -/
theorem up_eq (e : Fin 8) (t : Fin 1024) (i : Fin 4096) :
    val_main_v3 (F := Ideal) x0 x1 (ix3 e t i) = proj x0 x1 e t (upCol i) := by
  rw [val_main_v3_apply, idx_up, proj_eq]

/-- The elementwise stages form `up * (gate * logistic gate)`: the reference writes the logistic function out as
    `1 / (1 + exp (-gate))`, which is its definition. -/
theorem inter_eq (e : Fin 8) (t : Fin 1024) (i : Fin 4096) :
    val_main_v5 (F := Ideal) x0 x1 (ix3 e t i) = inter x0 x1 e t i := by
  rw [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, up_eq, gate_eq]
  simp only [Ideal.mulf_def, Ideal.addf_def, Ideal.hostDivf_def, Ideal.hostUnary_exp_def, Ideal.hostNegf_def,
    Ideal.negf_def, Ideal.ofBits_def, ofBits_one_f32]
  rfl

/-- The second contraction is the expert's output. -/
theorem out3_eq (e : Fin 8) (t : Fin 1024) (h : Fin 2048) :
    val_main_v6 (F := Ideal) x0 x1 x2 (ix3 e t h) = out3 x0 x1 x2 e t h := by
  rw [val_main_v6_apply]
  unfold out3 term
  refine Finset.sum_congr rfl fun i _ => ?_
  rw [lidx_down, ridx_down, inter_eq]

end Stages

/-- The reference's result is the specification. -/
theorem ref_eq (x0 : (⟨Cert.ReferenceIdeal.S8192x2048, .f32⟩ : BufTy).Contents (Elt Ideal))
    (x1 : (⟨Cert.ReferenceIdeal.S8x2048x8192, .f32⟩ : BufTy).Contents (Elt Ideal))
    (x2 : (⟨Cert.ReferenceIdeal.S8x4096x2048, .f32⟩ : BufTy).Contents (Elt Ideal)) :
    Cert.ReferenceIdeal.Read.val_main_v7 (F := Ideal) x0 x1 x2 = Cert.MoeSpec.G x0 x1 x2 := by
  funext r
  obtain ⟨a, b, rfl⟩ : ∃ (a : Fin 8192) (b : Fin 2048), r = ix2 a b := ⟨r 0, r 1, eq_ix2 r⟩
  rw [val_main_v7_apply, idx_flat, out3_eq]
  rfl

end Cert.RefIsG

end
-- ==== Proof.lean ====
/-
  The certificate's claims assembled.

  Both programs compute, for token t of expert e and hidden column h,
      out[e*1024 + t, h] = ∑ i < 4096, (up_i * (gate_i * logistic gate_i)) * down[e, i, h],
  with gate_i and up_i the token's products with columns i and 4096 + i of expert e's gate/up weights.  The kernel forms
  the sum over i in four tiles of 1024 columns, accumulated across grid steps; the reference forms it at once.  Over the
  extended reals the two agree because regrouping a finite sum uses only commutativity and associativity of addition;
  changes of float format are the identity there, and the logistic function is one function on both sides.

  The kernel's two frames (the word-level program and its idealization are the same text) come from one launch argument,
  stated at any float instance: the program's run ends with the result buffer at the reshaped output array and the
  argument arrays untouched.  The reference's frame is its run with the result dropped.  Nothing was rewritten by the
  idealization, so the preservation claim is trivial.
-/
import proofs.«135900_j8332236554875_1_alg».proof.Defs
import proofs.«135900_j8332236554875_1_alg».proof.Proof.Gen.Kernel
import proofs.«135900_j8332236554875_1_alg».proof.Proof.Gen.KernelIdeal
import proofs.«135900_j8332236554875_1_alg».proof.Proof.Gen.ReferenceIdeal
import proofs.«135900_j8332236554875_1_alg».proof.Proof.Gen.Pre_finite_inputs
import proofs.«135900_j8332236554875_1_alg».proof.Proof.Gen.ReferenceIdeal.Run
import proofs.«135900_j8332236554875_1_alg».proof.Proof.Gen.ReferenceIdeal.Read
import proofs.«135900_j8332236554875_1_alg».proof.Proof.KbLaunch
import proofs.«135900_j8332236554875_1_alg».proof.Proof.KiLaunch
import proofs.«135900_j8332236554875_1_alg».proof.Proof.KiValue
import proofs.«135900_j8332236554875_1_alg».proof.Proof.RefIsG

noncomputable section

namespace Cert.Proof

open Idealize.ShloMosaic Idealize.ShloMosaic.TcCoe Idealize.SL.Sem

/-- The word-level program runs to its end and leaves its arguments as they were. -/
theorem frame_k : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

/-- So does its idealization. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

/-- The reference's run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both idealized programs end with the specification's function of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.MoeSpec.G (Cert.KernelIdeal.HandValue.argX m c) (Cert.KernelIdeal.HandValue.argGU m c) (Cert.KernelIdeal.HandValue.argDN m c), ?_, ?_⟩
  · exact (θ_run Cert.KernelIdeal.defs _ _).mono
      (fun _ h c => ⟨(h c).1.trans (Cert.KernelIdeal.HandValue.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.RefIsG.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
